-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S256x128 .f32) (main_arg3 : FVec F S256 .f32) (main_arg4 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x256 : Shape := ⟨2, ![128, 256]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩

abbrev nBuf : Space → Nat
  | .hbm => 39
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S128x256, .f32⟩
  | .hbm, ⟨36, _⟩ => ⟨S128x256, .f32⟩
  | .hbm, ⟨37, _⟩ => ⟨S1x256, .f32⟩
  | .hbm, ⟨38, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev win0_0 : Pipeline.Window sig grid0 :=
  Pipeline.Window.ofSpec (Memref.whole main_v21) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x256 : Shape := ⟨2, ![128, 256]⟩
abbrev S50000x256 : Shape := ⟨2, ![50000, 256]⟩
abbrev S1x256 : Shape := ⟨2, ![1, 256]⟩

abbrev nBuf : Space → Nat
  | .hbm => 46
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S128x256, .f32⟩
  | .hbm, ⟨36, _⟩ => ⟨S50000x256, .f32⟩
  | .hbm, ⟨37, _⟩ => ⟨S1x256, .f32⟩
  | .hbm, ⟨38, _⟩ => ⟨S50000x256, .f32⟩
  | .hbm, ⟨39, _⟩ => ⟨S50000x256, .f32⟩
  | .hbm, ⟨40, _⟩ => ⟨S128x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call1_cst : Ref sig .tc := ⟨.hbm, 43, rfl⟩
abbrev main_call1_v0 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf

class Facts : Prop extends Facts₀ where

variable [Facts]
-- ==== Proof.LayerSpec.lean ====
/-
  The layer both programs compute, as ONE function of its five arrays, index by index, on the extended reals.

  With `mean` the neighbourhood mean of the node features (a [50000, 128] array), `x` the node features themselves,
  `wl` and `wr` the two [256, 128] weight matrices and `b` the [256] bias, entry (r, j) of the result is

      max ( Σ_k mean[r, k] · wl[j, k]  +  Σ_k x[r, k] · wr[j, k]  +  b[j] ,  0 )

  — the two linear maps of a row, the bias, and the rectifier. The sums run over the 128 input channels; the weights are
  read TRANSPOSED (row j of `wl` against row r of `mean`). No term is rounded: every sum and product is the exact one of
  the extended reals.

  The only algebra the certificate needs is how the three summands are grouped: one program adds the two matrix
  products first and the bias last, the other adds the bias between them. Addition on the extended reals is
  commutative and associative at the infinities too, so the two groupings agree everywhere (`bias_last_eq_bias_between`);
  no finiteness of the inputs enters.
-/
import Idealize.ShloMosaic.PureOps.Ideal
import Idealize.ShloMosaic.Lib.ValueIdx

noncomputable section

namespace Cert.Layer

open Idealize.ShloMosaic Idealize.ShloMosaic.ValueIdx

/-- Entry (r, j) of the layer: the rectified sum of row `r` of `mean` against row `j` of `wl`, row `r` of `x` against
    row `j` of `wr`, and `b j`. -/
def layerAt (mean x : (⟨2, ![50000, 128]⟩ : Shape).Idx → EReal) (wl wr : (⟨2, ![256, 128]⟩ : Shape).Idx → EReal)
    (b : (⟨1, ![256]⟩ : Shape).Idx → EReal) (r : Fin 50000) (j : Fin 256) : EReal :=
  max ((∑ k : Fin 128, mean (ix2 r k) * wl (ix2 j k)) + (∑ k : Fin 128, x (ix2 r k) * wr (ix2 j k)) + b (ix1 j)) 0

/-- The whole [50000, 256] result: `layerAt` at the index's two coordinates. -/
def layer (mean x : (⟨2, ![50000, 128]⟩ : Shape).Idx → EReal) (wl wr : (⟨2, ![256, 128]⟩ : Shape).Idx → EReal)
    (b : (⟨1, ![256]⟩ : Shape).Idx → EReal) : (⟨2, ![50000, 256]⟩ : Shape).Idx → EReal :=
  fun i => layerAt mean x wl wr b (i 0) (i 1)

/-- The layer at an index is `layerAt` at the index's coordinates. -/
theorem layer_apply (mean x : (⟨2, ![50000, 128]⟩ : Shape).Idx → EReal) (wl wr : (⟨2, ![256, 128]⟩ : Shape).Idx → EReal)
    (b : (⟨1, ![256]⟩ : Shape).Idx → EReal) (i : (⟨2, ![50000, 256]⟩ : Shape).Idx) :
    layer mean x wl wr b i = layerAt mean x wl wr b (i 0) (i 1) := rfl

/-- The bias added between the two products, or after both: one sum. -/
theorem bias_last_eq_bias_between (l r b : EReal) : l + b + r = l + r + b := add_right_comm l b r

end Cert.Layer

end
-- ==== Proof.BodyValue.lean ====
/-
  What one grid step's body stores, read at an index of its [2000, 256] output tile.

  The body loads a [2000, 128] tile of the neighbourhood means, the matching tile of the node features, the two
  [128, 256] transposed weight matrices and the [1, 256] bias row; it forms the two matrix products (each into a zero
  accumulator), adds them, adds the bias row broadcast down the 2000 rows, and takes the maximum with zero. The
  narrowing of the operands to bf16 before the products changes nothing on the extended reals.

  So entry (p, q) of the stored tile is
      max ( Σ_k means[p, k] · wlT[k, q] + Σ_k feats[p, k] · wrT[k, q] + bias[0, q] , 0 ),
  each product read as the plain sum over the 128 contracted channels (`tile_product`).
-/
import proofs.«170708_j68109591380139_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx

/-! ## The operand indices of the tile product: (p, q) and channel k read (p, k) on the left, (k, q) on the right -/

theorem lhs_row (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_chan (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_chan (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_col (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A [2000, 128] × [128, 256] product into a zero accumulator, at (p, q): the sum over the 128 channels of the left
    operand's row p against the right operand's column q. -/
theorem tile_product {φ₁ φ₂ : FTy} (l : FVec Ideal S2000x128 φ₁) (r : FVec Ideal S128x256 φ₂) (p : Fin 2000) (q : Fin 256) :
    matmul dot_S2000x128_S128x256_S2000x256_1_0_0_1_n_n none l r (constant S2000x256 .f32 0x00000000#32) (ix2 p q)
      = ∑ k : Fin 128, l (ix2 p k) * r (ix2 k q) := by
  simp only [matmul]
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k := funext fun a => Fin.ext (by
    match a with
    | ⟨0, _⟩ => exact lhs_row _ _
    | ⟨1, _⟩ => exact (lhs_chan _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q := funext fun a => Fin.ext (by
    match a with
    | ⟨0, _⟩ => exact (rhs_chan _ _).trans hk
    | ⟨1, _⟩ => exact rhs_col _ _)
  rw [el, er]

/-- The stored tile at (p, q), from the five loaded tiles. -/
theorem stored_apply (means feats : Vec Ideal S2000x128 .f32) (wlT wrT : Vec Ideal S128x256 .f32) (bias : Vec Ideal S1x256 .f32)
    (p : Fin 2000) (q : Fin 256) :
    k0_pay1 means feats wlT wrT bias (ix2 p q)
      = max ((∑ k : Fin 128, means (ix2 p k) * wlT (ix2 k q)) + (∑ k : Fin 128, feats (ix2 p k) * wrT (ix2 k q))
          + bias (ix2 (0 : Fin 1) q)) 0 := by
  unfold k0_pay1
  rw [maximumf_apply, addf_apply, addf_apply, tile_product, tile_product, broadcastTo_1b_ab_apply]
  simp only [truncf_apply, shapeCast_self, broadcast_apply]
  exact congrArg (max _) Ideal.ofBits_zero_f32

end Cert.KernelIdeal.BodyValue

end
-- ==== Proof.EntryArrays.lean ====
/-
  What the kernel region finds in the three small arrays the host prepares for it, read at an index.

  Before the region the host transposes each [256, 128] weight matrix to [128, 256] and lays the [256] bias out as
  one [1, 256] row. So the left weights as the region finds them hold, at (k, j), the launched matrix's (j, k); the
  right weights likewise; and the bias row holds, at (0, j), the launched bias's entry j.
-/
import proofs.«170708_j68109591380139_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The left weights at region entry are the launched [256, 128] matrix transposed. -/
theorem wl_entry (c : Dev nD) : (V m c main_v22 : S128x256.Idx → EReal)
    = transpose S128x256 [1, 0] (m ((c : Thread nD τ).loc main_arg2)) transposes_S256x128_S128x256_1_0 := by
  dsimp only [Gen.V]
  simp only [hostOps0, hostOps0_1, hostOps0_2, List.flatten_cons, List.flatten_nil, List.append_nil, List.cons_append,
    List.nil_append]
  after_results

/-- The right weights at region entry are the launched [256, 128] matrix transposed. -/
theorem wr_entry (c : Dev nD) : (V m c main_v23 : S128x256.Idx → EReal)
    = transpose S128x256 [1, 0] (m ((c : Thread nD τ).loc main_arg4)) transposes_S256x128_S128x256_1_0 := by
  dsimp only [Gen.V]
  simp only [hostOps0, hostOps0_1, hostOps0_2, List.flatten_cons, List.flatten_nil, List.append_nil, List.cons_append,
    List.nil_append]
  after_results

/-- The bias row at region entry is the launched [256] bias laid out as [1, 256]. -/
theorem bias_entry (c : Dev nD) : (V m c main_v24 : S1x256.Idx → EReal)
    = shapeCast S1x256 (m ((c : Thread nD τ).loc main_arg3)) shapeCasts_S256_S1x256 := by
  dsimp only [Gen.V]
  simp only [hostOps0, hostOps0_1, hostOps0_2, List.flatten_cons, List.flatten_nil, List.append_nil, List.cons_append,
    List.nil_append]
  after_results
  rfl

/-- Entry (k, j) of the left weights the region finds is entry (j, k) of the launched matrix. -/
theorem wl_entry_apply (c : Dev nD) (k : Fin 128) (j : Fin 256) :
    (V m c main_v22 : S128x256.Idx → EReal) (ix2 k j) = (m ((c : Thread nD τ).loc main_arg2) : S256x128.Idx → EReal) (ix2 j k) := by
  rw [wl_entry]; exact transpose_ix2_apply _ _ k j

/-- Entry (k, j) of the right weights the region finds is entry (j, k) of the launched matrix. -/
theorem wr_entry_apply (c : Dev nD) (k : Fin 128) (j : Fin 256) :
    (V m c main_v23 : S128x256.Idx → EReal) (ix2 k j) = (m ((c : Thread nD τ).loc main_arg4) : S256x128.Idx → EReal) (ix2 j k) := by
  rw [wr_entry]; exact transpose_ix2_apply _ _ k j

/-- Entry (0, j) of the bias row the region finds is entry j of the launched bias. -/
theorem bias_entry_apply (c : Dev nD) (u : Fin 1) (j : Fin 256) :
    (V m c main_v24 : S1x256.Idx → EReal) (ix2 u j) = (m ((c : Thread nD τ).loc main_arg3) : S256.Idx → EReal) (ix1 j) := by
  rw [bias_entry]; exact shapeCast_a_1a_apply _ _ u j

end Cert.KernelIdeal.Entry

end
-- ==== Proof.KernelValue.lean ====
/-
  The array the idealized kernel leaves: the layer of the arrays its region is entered with.

  The grid has 25 steps. Step t reads rows 2000·t … 2000·t + 1999 of the neighbourhood means and of the node features,
  the whole of both transposed weight matrices and the bias row, and writes back rows 2000·t … 2000·t + 1999 of the
  [50000, 256] result. By `BodyValue.stored_apply` the entry it writes at local (p, q) is the layer's entry at global
  (2000·t + p, q) (`point_eq` over any five tiles; the block reads; `entry_eq`; `written_eq`). The 25 row blocks tile the
  result, every index lying in the block of step ⌊row / 2000⌋ (`covered`), so after the run the result array is the layer everywhere (`final`, `run`).

  `mean` here is the neighbourhood-mean array as the region finds it, whatever the host computed into it; the weights
  and the bias are read back to the launched arrays through the host's transposes and reshape (`Entry`).
-/
import proofs.«170708_j68109591380139_1_alg».proof.Proof.Gen.KernelIdeal.Value
import proofs.«170708_j68109591380139_1_alg».proof.Proof.LayerSpec
import proofs.«170708_j68109591380139_1_alg».proof.Proof.BodyValue
import proofs.«170708_j68109591380139_1_alg».proof.Proof.EntryArrays

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_origin : (![0, 0] : Fin 2 → Nat) = fun _ => 0 := funext fun a => by fin_cases a <;> rfl

/-- The layer of the mean array the region finds and the launched features, weights and bias. -/
abbrev result (c : Dev nD) : S50000x256.Idx → EReal :=
  Cert.Layer.layer (V m c main_v21) (m ((c : Thread nD τ).loc main_arg0)) (m ((c : Thread nD τ).loc main_arg2)) (m ((c : Thread nD τ).loc main_arg4)) (m ((c : Thread nD τ).loc main_arg3))

/-- One entry of one step's tile is one entry of the layer, given where each loaded tile's entries come from: row p
    of the two row tiles is row r of their arrays, column q of the transposed weights is row j of the weights, and
    entry q of the bias row is entry j of the bias. -/
theorem point_eq (means feats : Vec Ideal S2000x128 .f32) (wlT wrT : Vec Ideal S128x256 .f32) (bias : Vec Ideal S1x256 .f32)
    (mean x : S50000x128.Idx → EReal) (wl wr : S256x128.Idx → EReal) (b : S256.Idx → EReal)
    (p : Fin 2000) (q : Fin 256) (r : Fin 50000) (j : Fin 256)
    (h0 : ∀ k : Fin 128, means (ix2 p k) = mean (ix2 r k)) (h1 : ∀ k : Fin 128, feats (ix2 p k) = x (ix2 r k))
    (h2 : ∀ k : Fin 128, wlT (ix2 k q) = wl (ix2 j k)) (h3 : ∀ k : Fin 128, wrT (ix2 k q) = wr (ix2 j k))
    (h4 : bias (ix2 (0 : Fin 1) q) = b (ix1 j)) :
    k0_pay1 means feats wlT wrT bias (ix2 p q) = Cert.Layer.layerAt mean x wl wr b r j := by
  rw [BodyValue.stored_apply]
  unfold Cert.Layer.layerAt
  simp only [h0, h1, h2, h3, h4]

/-- The printed index maps over the 25 steps: the two row windows move with the output's row block, which is the
    step's number; the weights and the bias stay at block (0, 0); no window moves along its columns. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) = t.val :=
  (by decide +kernel : ∀ t : Fin grid0.N, _)

/-! ## The step's blocks, read off ANY array under each window

Entry (p, k) of step `t`'s block of a [50000, 128] array is the array's entry (r, k) at the global row r = 2000·t + p;
entry (k, q) of the one block of a [128, 256] array is the array's entry (k, q); entry (0, q) of the one block of the
[1, 256] row is the row's entry (0, q). The global row and column are variables with their arithmetic as hypotheses,
so that each lemma applies to whatever spelling of them a goal carries. -/

/-- The means' block: local row p is global row r. -/
theorem means_block (A : S50000x128.Idx → EReal) (t : Fin cfg0.N) (p : Fin 2000) (k : Fin 128) (r : Fin 50000)
    (hr : r.val = t.val * 2000 + p.val) :
    ((cfg0.win 0).blk t).view.read (Elt Ideal) A (ix2 p k) = A (ix2 r k) := by
  obtain ⟨e00, e01, e10, e11, e20, e21, e30, e31, e40, e41, e51, e50⟩ := idx_facts t
  show A (((cfg0.win 0).blk t).view.emb (ix2 p k)) = A (ix2 r k)
  refine congrArg A (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- The features' block likewise. -/
theorem feats_block (A : S50000x128.Idx → EReal) (t : Fin cfg0.N) (p : Fin 2000) (k : Fin 128) (r : Fin 50000)
    (hr : r.val = t.val * 2000 + p.val) :
    ((cfg0.win 1).blk t).view.read (Elt Ideal) A (ix2 p k) = A (ix2 r k) := by
  obtain ⟨e00, e01, e10, e11, e20, e21, e30, e31, e40, e41, e51, e50⟩ := idx_facts t
  show A (((cfg0.win 1).blk t).view.emb (ix2 p k)) = A (ix2 r k)
  refine congrArg A (funext fun a => Fin.ext ?_)
  match a with
  | ⟨0, _⟩ => show win0_1.index t (0 : Fin 2) * 2000 + 1 * p.val = r.val; omega
  | ⟨1, _⟩ => show win0_1.index t (1 : Fin 2) * 128 + 1 * k.val = k.val; omega

/-- The left weights' block is the whole array. -/
theorem wl_block (A : S128x256.Idx → EReal) (t : Fin cfg0.N) (q : Fin 256) (k : Fin 128) (j : Fin 256) (hj : j.val = q.val) :
    ((cfg0.win 2).blk t).view.read (Elt Ideal) A (ix2 k q) = A (ix2 k j) := by
  obtain ⟨e00, e01, e10, e11, e20, e21, e30, e31, e40, e41, e51, e50⟩ := idx_facts t
  show A (((cfg0.win 2).blk t).view.emb (ix2 k q)) = A (ix2 k j)
  refine congrArg A (funext fun a => Fin.ext ?_)
  match a with
  | ⟨0, _⟩ => show win0_2.index t (0 : Fin 2) * 128 + 1 * k.val = k.val; omega
  | ⟨1, _⟩ => show win0_2.index t (1 : Fin 2) * 256 + 1 * q.val = j.val; omega

/-- The right weights' block is the whole array. -/
theorem wr_block (A : S128x256.Idx → EReal) (t : Fin cfg0.N) (q : Fin 256) (k : Fin 128) (j : Fin 256) (hj : j.val = q.val) :
    ((cfg0.win 3).blk t).view.read (Elt Ideal) A (ix2 k q) = A (ix2 k j) := by
  obtain ⟨e00, e01, e10, e11, e20, e21, e30, e31, e40, e41, e51, e50⟩ := idx_facts t
  show A (((cfg0.win 3).blk t).view.emb (ix2 k q)) = A (ix2 k j)
  refine congrArg A (funext fun a => Fin.ext ?_)
  match a with
  | ⟨0, _⟩ => show win0_3.index t (0 : Fin 2) * 128 + 1 * k.val = k.val; omega
  | ⟨1, _⟩ => show win0_3.index t (1 : Fin 2) * 256 + 1 * q.val = j.val; omega

/-- The bias row's block is the whole row. -/
theorem bias_block (A : S1x256.Idx → EReal) (t : Fin cfg0.N) (q : Fin 256) (j : Fin 256) (hj : j.val = q.val) :
    ((cfg0.win 4).blk t).view.read (Elt Ideal) A (ix2 (0 : Fin 1) q) = A (ix2 (0 : Fin 1) j) := by
  obtain ⟨e00, e01, e10, e11, e20, e21, e30, e31, e40, e41, e51, e50⟩ := idx_facts t
  show A (((cfg0.win 4).blk t).view.emb (ix2 (0 : Fin 1) q)) = A (ix2 (0 : Fin 1) j)
  refine congrArg A (funext fun a => Fin.ext ?_)
  match a with
  | ⟨0, _⟩ => show win0_4.index t (0 : Fin 2) * 1 + 1 * 0 = 0; omega
  | ⟨1, _⟩ => show win0_4.index t (1 : Fin 2) * 256 + 1 * q.val = j.val; omega

/-! ## The same reads, off the arrays the region finds -/

/-- The means' block at step `t`, read off the array the region finds. -/
theorem means_read (c : Dev nD) (t : Fin cfg0.N) (p : Fin 2000) (k : Fin 128) (r : Fin 50000) (hr : r.val = t.val * 2000 + p.val) :
    iblk m c 0 t (ix2 p k) = (V m c main_v21 : S50000x128.Idx → EReal) (ix2 r k) :=
  means_block (V m c main_v21) t p k r hr

/-- The features' block at step `t`, read off the launched features. -/
theorem feats_read (c : Dev nD) (t : Fin cfg0.N) (p : Fin 2000) (k : Fin 128) (r : Fin 50000) (hr : r.val = t.val * 2000 + p.val) :
    iblk m c 1 t (ix2 p k) = ((m ((c : Thread nD τ).loc main_arg0)) : S50000x128.Idx → EReal) (ix2 r k) :=
  (feats_block (V m c main_arg0) t p k r hr).trans (congrFun (V_main_arg0 m c) _)

/-- The left weights' block, read off the launched matrix: transposed. -/
theorem wl_read (c : Dev nD) (t : Fin cfg0.N) (q : Fin 256) (k : Fin 128) (j : Fin 256) (hj : j.val = q.val) :
    iblk m c 2 t (ix2 k q) = ((m ((c : Thread nD τ).loc main_arg2)) : S256x128.Idx → EReal) (ix2 j k) :=
  (wl_block (V m c main_v22) t q k j hj).trans (Entry.wl_entry_apply m c k j)

/-- The right weights' block, read off the launched matrix: transposed. -/
theorem wr_read (c : Dev nD) (t : Fin cfg0.N) (q : Fin 256) (k : Fin 128) (j : Fin 256) (hj : j.val = q.val) :
    iblk m c 3 t (ix2 k q) = ((m ((c : Thread nD τ).loc main_arg4)) : S256x128.Idx → EReal) (ix2 j k) :=
  (wr_block (V m c main_v23) t q k j hj).trans (Entry.wr_entry_apply m c k j)

/-- The bias row's block, read off the launched bias. -/
theorem bias_read (c : Dev nD) (t : Fin cfg0.N) (q : Fin 256) (j : Fin 256) (hj : j.val = q.val) :
    iblk m c 4 t (ix2 (0 : Fin 1) q) = ((m ((c : Thread nD τ).loc main_arg3)) : S256.Idx → EReal) (ix1 j) :=
  (bias_block (V m c main_v24) t q j hj).trans (Entry.bias_entry_apply m c 0 j)

/-- ONE ENTRY of what step `t` stores, at local (p, q), is the layer's entry at the global row r = 2000·t + p and
    column j = q. -/
theorem entry_eq (c : Dev nD) (t : Fin cfg0.N) (p : Fin 2000) (q : Fin 256) (r : Fin 50000) (hr : r.val = t.val * 2000 + p.val) (j : Fin 256) (hj : j.val = q.val) :
    k0_pay1 (iblk m c 0 t) (iblk m c 1 t) (iblk m c 2 t) (iblk m c 3 t) (iblk m c 4 t) (ix2 p q)
      = Cert.Layer.layerAt (V m c main_v21) (m ((c : Thread nD τ).loc main_arg0)) (m ((c : Thread nD τ).loc main_arg2)) (m ((c : Thread nD τ).loc main_arg4)) (m ((c : Thread nD τ).loc main_arg3)) r j :=
  point_eq (iblk m c 0 t) (iblk m c 1 t) (iblk m c 2 t) (iblk m c 3 t) (iblk m c 4 t)
    (V m c main_v21) (m ((c : Thread nD τ).loc main_arg0)) (m ((c : Thread nD τ).loc main_arg2)) (m ((c : Thread nD τ).loc main_arg4)) (m ((c : Thread nD τ).loc main_arg3)) p q r j
    (fun k => means_read m c t p k r hr) (fun k => feats_read m c t p k r hr) (fun k => wl_read m c t q k j hj)
    (fun k => wr_read m c t q k j hj) (bias_read m c t q j hj)

/-- WHAT STEP `t` WRITES BACK is its row block of the layer. -/
theorem written_eq (c : Dev nD) (t : Fin cfg0.N) :
    (dats m 0 c).flushed 5 t = ((cfg0.win 5).blk t).view.read (Elt Ideal)
      (Cert.Layer.layer (V m c main_v21) (m ((c : Thread nD τ).loc main_arg0)) (m ((c : Thread nD τ).loc main_arg2)) (m ((c : Thread nD τ).loc main_arg4)) (m ((c : Thread nD τ).loc main_arg3))) := by
  rw [Value.flushed5]
  unfold out0_5
  rw [View.canon_unit_zero zero_origin]
  simp only [View.ld_unit_zero (S := S2000x128) zero_origin, View.ld_unit_zero (S := S128x256) zero_origin,
    View.ld_unit_zero (S := S1x256) zero_origin]
  obtain ⟨e00, e01, e10, e11, e20, e21, e30, e31, e40, e41, e51, e50⟩ := idx_facts t
  funext y
  obtain ⟨p, q, rfl⟩ : ∃ (p : Fin 2000) (q : Fin 256), y = ix2 p q := ⟨y 0, y 1, eq_ix2 y⟩
  show k0_pay1 (iblk m c 0 t) (iblk m c 1 t) (iblk m c 2 t) (iblk m c 3 t) (iblk m c 4 t) (ix2 p q) = _
  -- reading through the window transports the entry along an equation between equal element types: the identity
  rw [View.read_apply, cast_eq, Cert.Layer.layer_apply]
  refine entry_eq m c t p q _ ?_ _ ?_
  · show win0_5.index t (0 : Fin 2) * 2000 + 1 * p.val = t.val * 2000 + p.val
    omega
  · show win0_5.index t (1 : Fin 2) * 256 + 1 * q.val = q.val
    omega

/-- An index of the result is in step `t`'s block iff each coordinate is in the block's range on its axis. -/
theorem mem_block (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v25).slice (win0_5.rect t)).set ↔ _
  rw [View.set_slice_whole, Rect.mem_set_unit]
  exact Iff.rfl

/-- Every index of the result lies in the block of the step numbered by its row divided by 2000. -/
theorem covered (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have hlt : (i 0).val / 2000 < cfg0.N := by show (i 0).val / 2000 < grid0.N; rw [N_0]; omega
  obtain ⟨-, -, -, -, -, -, -, -, -, -, e51, e50⟩ := idx_facts ⟨(i 0).val / 2000, hlt⟩
  have e50' : win0_5.index ⟨(i 0).val / 2000, hlt⟩ (0 : Fin 2) = (i 0).val / 2000 := e50
  refine ⟨⟨(i 0).val / 2000, hlt⟩, flush0_5 _, ?_⟩
  rw [mem_block]
  intro a
  match a with
  | ⟨0, _⟩ =>
    show win0_5.index ⟨(i 0).val / 2000, hlt⟩ (0 : Fin 2) * 2000 ≤ (i 0).val ∧ (i 0).val < win0_5.index ⟨(i 0).val / 2000, hlt⟩ (0 : Fin 2) * 2000 + 2000
    omega
  | ⟨1, _⟩ =>
    show win0_5.index ⟨(i 0).val / 2000, hlt⟩ (1 : Fin 2) * 256 ≤ (i 1).val ∧ (i 1).val < win0_5.index ⟨(i 0).val / 2000, hlt⟩ (1 : Fin 2) * 256 + 256
    omega

/-- THE RESULT ARRAY after the run is the layer. -/
theorem final (c : Dev nD) : (dats m 0 c).arrAt 5 cfg0.N = result m c :=
  (dats m 0 c).arrAt_eq_of_cover 5 (result m c) (fun t _ => written_eq m c t) covered

/-- The kernel's run, read: the result array at the layer of the mean array the region found, the arguments unchanged. -/
theorem run : θ_run defs (onTc (τ := τ) (main (F := Ideal))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrayValue

end
-- ==== Proof.ReferenceValue.lean ====
/-
  The reference computes the layer.

  Its last stage, read back one operation at a time: the rectifier of ( mean · wlᵀ + bias ) + x · wrᵀ, where `mean` is
  its own neighbourhood-mean stage (gather, two segment sums, the clamp of the counts and the division: kept closed
  here, as one function of the features and the edge list), each product a sum over the 128 channels, the
  transposed weights read back at the swapped index, the bias broadcast over the rows.

  That is `Cert.Layer.layer` of those arrays once the bias is moved past the second product
  (`Cert.Layer.bias_last_eq_bias_between`).

  `meanOf` spells the mean stage out as the one composition it is (the sources wrapped, the gather, the two segment
  sums, the clamp, the division), so that it can be set beside the kernel's.
-/
import proofs.«170708_j68109591380139_1_alg».proof.Proof.Gen.ReferenceIdeal.Read
import proofs.«170708_j68109591380139_1_alg».proof.Proof.LayerSpec

noncomputable section

namespace Cert.ReferenceIdeal.LayerValue

open Cert.ReferenceIdeal Cert.ReferenceIdeal.Gen Cert.ReferenceIdeal.Read Idealize.ShloMosaic Idealize.ShloMosaic.ValueIdx

section Mean

variable {F : FTy → Type} [FloatOps F]

/-- The neighbourhood mean of the node features over the edge list, as the host computes it: row v is the sum of the
    feature rows at the (wrapped) sources of the edges whose target is v, divided by the larger of v's in-degree and one. -/
def meanOf (x0 : (⟨S50000x128, .f32⟩ : BufTy).Contents (Elt F)) (x1 : (⟨S2x800000, .i32⟩ : BufTy).Contents (Elt F)) :
    (⟨S50000x128, .f32⟩ : BufTy).Contents (Elt F) :=
  Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![1, 0] x1 slices_S2x800000_S1x800000_1_0) shapeCasts_S1x800000_S800000)) (Host.gather gather_S50000x128_S800000x1_S800000x128_1_0_n_n_0_1_1128 x0 (broadcastInDim S800000x1 ![0] bcast_S800000_S800000x1_0 (select (cmpi .slt (shapeCast _ (extractStridedSlice S1x800000 ![0, 0] x1 slices_S2x800000_S1x800000_0_0) shapeCasts_S1x800000_S800000) (broadcastInDim S800000 ![] bcast_S_S800000 (constantI S_ 32 0#32))) (addi (shapeCast _ (extractStridedSlice S1x800000 ![0, 0] x1 slices_S2x800000_S1x800000_0_0) shapeCasts_S1x800000_S800000) (broadcastInDim S800000 ![] bcast_S_S800000 (constantI S_ 32 50000#32))) (shapeCast _ (extractStridedSlice S1x800000 ![0, 0] x1 slices_S2x800000_S1x800000_0_0) shapeCasts_S1x800000_S800000))))) (broadcastInDim S50000x128 ![0, 1] bcast_S50000x1_S50000x128_0_1 (broadcastInDim S50000x1 ![0] bcast_S50000_S50000x1_0 (maximumf (broadcastInDim S50000 ![] bcast_S_S50000 (id (constant S_ .f32 0x3F800000#32))) (Host.scatterAdd scatter_S50000_S800000x1_S800000_n_0_0_1 (broadcastInDim S50000 ![] bcast_S_S50000 (constant S_ .f32 0x00000000#32)) (broadcastInDim S800000x1 ![0] bcast_S800000_S800000x1_0 (shapeCast _ (extractStridedSlice S1x800000 ![1, 0] x1 slices_S2x800000_S1x800000_1_0) shapeCasts_S1x800000_S800000)) (broadcastInDim S800000 ![] bcast_S_S800000 (constant S_ .f32 0x3F800000#32))))))

/-- The reference's mean stage is that composition. -/
theorem mean_stage (x0 : (⟨S50000x128, .f32⟩ : BufTy).Contents (Elt F)) (x1 : (⟨S2x800000, .i32⟩ : BufTy).Contents (Elt F)) :
    val_main_v21 (F := F) x0 x1 = meanOf x0 x1 := rfl

end Mean

/-! ## The stages' index functions, as coordinates -/

theorem lmean_idx (i : S50000x256.Idx) (k : Fin 128) : lidx_main_v23 i k = ix2 (i 0) k :=
  funext fun a => Fin.ext (by match a with | ⟨0, _⟩ => rfl | ⟨1, _⟩ => rfl)
theorem rwl_idx (i : S50000x256.Idx) (k : Fin 128) : idx_main_v22 (ridx_main_v23 i k) = ix2 (i 1) k :=
  funext fun a => Fin.ext (by match a with | ⟨0, _⟩ => rfl | ⟨1, _⟩ => rfl)
theorem lx_idx (i : S50000x256.Idx) (k : Fin 128) : lidx_main_v28 i k = ix2 (i 0) k :=
  funext fun a => Fin.ext (by match a with | ⟨0, _⟩ => rfl | ⟨1, _⟩ => rfl)
theorem rwr_idx (i : S50000x256.Idx) (k : Fin 128) : idx_main_v27 (ridx_main_v28 i k) = ix2 (i 1) k :=
  funext fun a => Fin.ext (by match a with | ⟨0, _⟩ => rfl | ⟨1, _⟩ => rfl)
theorem bias_idx (i : S50000x256.Idx) : idx_main_v24 (idx_main_v25 i) = ix1 (i 1) :=
  funext fun a => Fin.ext (by match a with | ⟨0, _⟩ => rfl)

/-- The reference's result is the layer of its mean stage, the features, the two weight matrices and the bias. -/
theorem result_eq (x0 : S50000x128.Idx → EReal) (x1 : (⟨S2x800000, .i32⟩ : BufTy).Contents (Elt Ideal))
    (x2 : S256x128.Idx → EReal) (x3 : S256.Idx → EReal) (x4 : S256x128.Idx → EReal) :
    val_main_v30 (F := Ideal) x0 x1 x2 x3 x4 = Cert.Layer.layer (val_main_v21 (F := Ideal) x0 x1) x0 x2 x4 x3 := by
  funext i
  rw [val_main_v30_apply, val_main_v29_apply, val_main_v26_apply, val_main_v23_apply, val_main_v25_apply, val_main_v24_apply,
    val_main_v28_apply, val_main_call1_v0_apply, val_main_call1_cst_apply]
  simp only [val_main_v22_apply, val_main_v27_apply, lmean_idx, rwl_idx, lx_idx, rwr_idx, bias_idx]
  show max ((∑ k : Fin 128, val_main_v21 (F := Ideal) x0 x1 (ix2 (i 0) k) * x2 (ix2 (i 1) k)) + x3 (ix1 (i 1))
      + ∑ k : Fin 128, x0 (ix2 (i 0) k) * x4 (ix2 (i 1) k)) (Ideal.ofBits .f32 0x00000000#32) = _
  rw [Ideal.ofBits_zero_f32, Cert.Layer.bias_last_eq_bias_between]
  rfl

end Cert.ReferenceIdeal.LayerValue

end
-- ==== Proof.EntryMean.lean ====
/-
  The neighbourhood means the kernel's region is entered with.

  Before its region the kernel's host code takes the source and target rows of the edge list, wraps negative sources
  by 50000, gathers the source rows of the features, sums them by target (a segment sum), sums ones by target (the
  in-degree), clamps the in-degree below by one and divides row by row. `meanOf` is that composition as ONE function
  of the features and the edge list; the gather and the two segment sums are never opened. `mean_entry`: the mean
  array the region finds is `meanOf` of the launched features and edges.
-/
import proofs.«170708_j68109591380139_1_alg».proof.Proof.Gen.KernelIdeal.Frame
import Idealize.ShloMosaic.Lib.StableHlo.Run

noncomputable section

namespace Cert.KernelIdeal.EntryMean

open Cert.KernelIdeal Cert.KernelIdeal.Gen Idealize.ShloMosaic Idealize.ShloMosaic.TcCoe Idealize.SL.Sem
open Idealize.ShloMosaic.StableHlo

variable {F : FTy → Type} [FloatOps F]

/-- The neighbourhood mean of the node features over the edge list, as the host computes it: row v is the sum of the
    feature rows at the (wrapped) sources of the edges whose target is v, divided by the larger of v's in-degree and one. -/
def meanOf (x0 : (⟨S50000x128, .f32⟩ : BufTy).Contents (Elt F)) (x1 : (⟨S2x800000, .i32⟩ : BufTy).Contents (Elt F)) :
    (⟨S50000x128, .f32⟩ : BufTy).Contents (Elt F) :=
  Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![1, 0] x1 slices_S2x800000_S1x800000_1_0) shapeCasts_S1x800000_S800000)) (Host.gather gather_S50000x128_S800000x1_S800000x128_1_0_n_n_0_1_1128 x0 (broadcastInDim S800000x1 ![0] bcast_S800000_S800000x1_0 (select (cmpi .slt (shapeCast _ (extractStridedSlice S1x800000 ![0, 0] x1 slices_S2x800000_S1x800000_0_0) shapeCasts_S1x800000_S800000) (broadcastInDim S800000 ![] bcast_S_S800000 (constantI S_ 32 0#32))) (addi (shapeCast _ (extractStridedSlice S1x800000 ![0, 0] x1 slices_S2x800000_S1x800000_0_0) shapeCasts_S1x800000_S800000) (broadcastInDim S800000 ![] bcast_S_S800000 (constantI S_ 32 50000#32))) (shapeCast _ (extractStridedSlice S1x800000 ![0, 0] x1 slices_S2x800000_S1x800000_0_0) shapeCasts_S1x800000_S800000))))) (broadcastInDim S50000x128 ![0, 1] bcast_S50000x1_S50000x128_0_1 (broadcastInDim S50000x1 ![0] bcast_S50000_S50000x1_0 (maximumf (broadcastInDim S50000 ![] bcast_S_S50000 (id (constant S_ .f32 0x3F800000#32))) (Host.scatterAdd scatter_S50000_S800000x1_S800000_n_0_0_1 (broadcastInDim S50000 ![] bcast_S_S50000 (constant S_ .f32 0x00000000#32)) (broadcastInDim S800000x1 ![0] bcast_S800000_S800000x1_0 (shapeCast _ (extractStridedSlice S1x800000 ![1, 0] x1 slices_S2x800000_S1x800000_1_0) shapeCasts_S1x800000_S800000)) (broadcastInDim S800000 ![] bcast_S_S800000 (constant S_ .f32 0x3F800000#32))))))

variable (m : (ℓ : Loc nD τ sig) → Buf (Elt F) ℓ)

set_option maxRecDepth 8192 in
set_option maxHeartbeats 2000000 in
/-- The mean array at region entry is `meanOf` of the launched features and edges. -/
theorem mean_entry (c : Dev nD) :
    V m c main_v21 = meanOf (F := F) (m ((c.tc : Thread nD τ).loc main_arg0)) (m ((c.tc : Thread nD τ).loc main_arg1)) := by
  unfold meanOf
  dsimp only [Gen.V]
  simp only [hostOps0, hostOps0_1, hostOps0_2, List.flatten_cons, List.flatten_nil, List.append_nil, List.cons_append,
    List.nil_append]
  after_results_simp <;> rfl

end Cert.KernelIdeal.EntryMean

end
-- ==== Proof.MeanAgree.lean ====
/-
  The two programs' neighbourhood means are one function.

  The kernel's host code and the reference apply the same operations, in the same order, to the features and the
  edge list; the two compositions differ only in which program's table of shapes and dimension records each names,
  and those tables agree entry by entry. So the two `meanOf` are equal as they stand, argument by argument, without
  the gather or a segment sum ever being opened.
-/
import proofs.«170708_j68109591380139_1_alg».proof.Proof.EntryMean
import proofs.«170708_j68109591380139_1_alg».proof.Proof.ReferenceValue

noncomputable section

namespace Cert.MeanAgree

open Idealize.ShloMosaic

variable {F : FTy → Type} [FloatOps F]

/-- The kernel's neighbourhood mean is the reference's. -/
theorem mean_agree (x0 : (⟨Cert.KernelIdeal.S50000x128, .f32⟩ : BufTy).Contents (Elt F))
    (x1 : (⟨Cert.KernelIdeal.S2x800000, .i32⟩ : BufTy).Contents (Elt F)) :
    Cert.KernelIdeal.EntryMean.meanOf (F := F) x0 x1 = Cert.ReferenceIdeal.LayerValue.meanOf (F := F) x0 x1 := rfl

end Cert.MeanAgree

end
-- ==== Proof.lean ====
/-
  A mean-aggregating graph layer: out = relu( mean · W_lᵀ + b_l + x · W_rᵀ ), where row v of `mean` is the sum of the
  feature rows x[src(e)] over the edges e with dst(e) = v, divided by max(in-degree(v), 1).

  Both programs form `mean` on the host by the same gather, the same two segment sums, the same clamp and the same
  division: one function of the features and the edge list (`Proof/EntryMean.lean`, `Proof/MeanAgree.lean`). They differ in the dense part. The kernel walks the 50000 rows in 25
  blocks of 2000; on each block it multiplies the block of `mean` and the block of `x` by the transposed weights,
  adds the two products, then the bias row, and rectifies (`Proof/BodyValue.lean`); the blocks tile the result
  (`Proof/KernelValue.lean`). The reference multiplies whole arrays and adds the bias BETWEEN the two products
  (`Proof/ReferenceValue.lean`). On the extended reals the narrowing of the kernel's operands to bf16 is the identity,
  a product into a zero accumulator is the plain sum over the 128 channels, and addition is commutative and
  associative at the infinities too, so both results are `Cert.Layer.layer` (`Proof/LayerSpec.lean`) of the same
  arrays, entry by entry. The inputs' finiteness is never used.

  The three frames are the generated ones (the reference's is its run with the result dropped); the idealization
  rewrote no operation, so there is nothing to preserve.
-/
import proofs.«170708_j68109591380139_1_alg».proof.Defs
import proofs.«170708_j68109591380139_1_alg».proof.Proof.Gen.Kernel
import proofs.«170708_j68109591380139_1_alg».proof.Proof.Gen.Kernel.Skeleton
import proofs.«170708_j68109591380139_1_alg».proof.Proof.Gen.Kernel.Launch
import proofs.«170708_j68109591380139_1_alg».proof.Proof.Gen.Kernel.Points
import proofs.«170708_j68109591380139_1_alg».proof.Proof.Gen.Kernel.Frame
import proofs.«170708_j68109591380139_1_alg».proof.Proof.Gen.KernelIdeal
import proofs.«170708_j68109591380139_1_alg».proof.Proof.Gen.KernelIdeal.Skeleton
import proofs.«170708_j68109591380139_1_alg».proof.Proof.Gen.KernelIdeal.Launch
import proofs.«170708_j68109591380139_1_alg».proof.Proof.Gen.KernelIdeal.Points
import proofs.«170708_j68109591380139_1_alg».proof.Proof.Gen.KernelIdeal.Frame
import proofs.«170708_j68109591380139_1_alg».proof.Proof.Gen.ReferenceIdeal
import proofs.«170708_j68109591380139_1_alg».proof.Proof.Gen.Pre_finite_inputs
import proofs.«170708_j68109591380139_1_alg».proof.Proof.Gen.KernelIdeal.Value
import proofs.«170708_j68109591380139_1_alg».proof.Proof.Gen.ReferenceIdeal.Run
import proofs.«170708_j68109591380139_1_alg».proof.Proof.Gen.ReferenceIdeal.Read
import proofs.«170708_j68109591380139_1_alg».proof.Proof.KernelValue
import proofs.«170708_j68109591380139_1_alg».proof.Proof.ReferenceValue
import proofs.«170708_j68109591380139_1_alg».proof.Proof.EntryMean
import proofs.«170708_j68109591380139_1_alg».proof.Proof.MeanAgree
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments the kernel's result array ends at the layer of the mean array its
    region found, and the reference's at the layer of its own mean stage; the two mean arrays are one term of the
    features and the edge list, so the results agree entry by entry. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.LayerValue.result_eq,
    Cert.ReferenceIdeal.LayerValue.mean_stage,
    (hagree c).1, (hagree c).2.1, (hagree c).2.2.1, (hagree c).2.2.2.1, (hagree c).2.2.2.2,
    ← Cert.MeanAgree.mean_agree, ← Cert.KernelIdeal.EntryMean.mean_entry m c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
